-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x16x16 : Shape := ⟨4, ![4, 32, 16, 16]⟩
abbrev S4x32x256x256 : Shape := ⟨4, ![4, 32, 256, 256]⟩
abbrev S_ : Shape := ⟨0, ![]⟩

class Facts : Prop where
  bcast_S_S4x32x16x16 : S_.BroadcastsInDim S4x32x16x16 (![] : Fin 0 → Fin S4x32x16x16.rank)
  reducesTo_S4x32x16x16_S_d0_1_2_3 : S4x32x16x16.ReducesTo [0, 1, 2, 3] S_
  h_S_ : 0 < S_.numel
  bcast_S_S4x32x256x256 : S_.BroadcastsInDim S4x32x256x256 (![] : Fin 0 → Fin S4x32x256x256.rank)
  reducesTo_S4x32x256x256_S_d0_1_2_3 : S4x32x256x256.ReducesTo [0, 1, 2, 3] S_

variable [Facts]

def fn {F : FTy → Type} [FloatOps F] (main_arg0 : FVec F S4x32x16x16 .f32) (main_arg1 : FVec F S4x32x256x256 .f32) : IVec S_ 1 :=
  let main_v0 : FVec F S4x32x16x16 .f32 := Host.absf main_arg0
  let main_cst : FVec F S_ .f32 := constant S_ .f32 0x7F800000#32
  let main_v1 : FVec F S4x32x16x16 .f32 := broadcastInDim S4x32x16x16 ![] bcast_S_S4x32x16x16 main_cst
  let main_v2 : IVec S4x32x16x16 1 := cmpf .olt main_v0 main_v1
  let main_c : IVec S_ 1 := constantI S_ 1 1#1
  let main_v3 : IVec S_ 1 := (fun x v => Host.reduce IntOp.andi x v reducesTo_S4x32x16x16_S_d0_1_2_3 h_S_) main_v2 main_c
  let main_v4 : FVec F S4x32x256x256 .f32 := Host.absf main_arg1
  let main_cst_0 : FVec F S_ .f32 := constant S_ .f32 0x7F800000#32
  let main_v5 : FVec F S4x32x256x256 .f32 := broadcastInDim S4x32x256x256 ![] bcast_S_S4x32x256x256 main_cst_0
  let main_v6 : IVec S4x32x256x256 1 := cmpf .olt main_v4 main_v5
  let main_c_1 : IVec S_ 1 := constantI S_ 1 1#1
  let main_v7 : IVec S_ 1 := (fun x v => Host.reduce IntOp.andi x v reducesTo_S4x32x256x256_S_d0_1_2_3 h_S_) main_v6 main_c_1
  let main_v8 : IVec S_ 1 := andi main_v3 main_v7
  main_v8
-- ==== Kernel.lean ====
abbrev S4x32x16x16 : Shape := ⟨4, ![4, 32, 16, 16]⟩
abbrev S4x32x256x256 : Shape := ⟨4, ![4, 32, 256, 256]⟩
abbrev S4x16x16x32 : Shape := ⟨4, ![4, 16, 16, 32]⟩
abbrev S4x8192 : Shape := ⟨2, ![4, 8192]⟩
abbrev S4x8192x8192 : Shape := ⟨3, ![4, 8192, 8192]⟩
abbrev S1x1x256x256 : Shape := ⟨4, ![1, 1, 256, 256]⟩
abbrev S1x256x8192 : Shape := ⟨3, ![1, 256, 8192]⟩
abbrev S256x256 : Shape := ⟨2, ![256, 256]⟩
abbrev S1x256x256 : Shape := ⟨3, ![1, 256, 256]⟩

abbrev nBuf : Space → Nat
  | .hbm => 5
  | .vmem => 4
  | .smem => 0
  | _ => 0

abbrev bufTy : (tb : Table) → Fin (tcTables nBuf tb) → BufTy
  | .hbm, ⟨0, _⟩ => ⟨S4x32x16x16, .f32⟩
  | .hbm, ⟨1, _⟩ => ⟨S4x32x256x256, .f32⟩
  | .hbm, ⟨2, _⟩ => ⟨S4x16x16x32, .f32⟩
  | .hbm, ⟨3, _⟩ => ⟨S4x8192, .f32⟩
  | .hbm, ⟨4, _⟩ => ⟨S4x8192x8192, .f32⟩
  | .local _ .vmem, ⟨0, _⟩ => ⟨S1x1x256x256, .f32⟩
  | .local _ .vmem, ⟨1, _⟩ => ⟨S1x1x256x256, .f32⟩
  | .local _ .vmem, ⟨2, _⟩ => ⟨S1x256x8192, .f32⟩
  | .local _ .vmem, ⟨3, _⟩ => ⟨S1x256x8192, .f32⟩
  | _, _ => ⟨S4x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v2 : BitVec 32 := Scalar.muli arg1 c256_i32
  v2
def k0_off1 (i : grid0.Coords) : Fin 3 → Nat :=
  let c0_6 : Index := 0#32
  let c0_7 : Index := 0#32
  let arg1 : BitVec 32 := BitVec.ofNat 32 (i 1).val
  let c256_i32 : BitVec 32 := 256#32
  let v2 : BitVec 32 := Scalar.muli arg1 c256_i32
  let v3 : BitVec 32 := v2
  let v6 : Index := Scalar.indexCast v3
  ![0, 0, v6.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S4x32x16x16_S4x16x16x32_0_2_3_1 : S4x32x16x16.Transposes [0, 2, 3, 1] S4x16x16x32
  shapeCasts_S4x16x16x32_S4x8192 : S4x16x16x32.ShapeCasts S4x8192
  inb_S1x256x8192_S1x256x8192_0_0_0 : ∀ a, (![0, 0, 0] : Fin 3 → Nat) a + S1x256x8192.size a ≤ S1x256x8192.size a
  h_S1x256x8192 : 0 < S1x256x8192.numel
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  h_S1x256x256 : 0 < S1x256x256.numel
  shapeCasts_S1x256x256_S256x256 : S1x256x256.ShapeCasts S256x256
  shapeCasts_S256x256_S1x256x256 : S256x256.ShapeCasts S1x256x256
  hrank0 : 0 < grid0.rank
  k0_mult1_dvd : ∀ i : grid0.Coords, 128 ∣ (k0_mult1 i).toNat
  k0_off1_inb : ∀ i : grid0.Coords, ∀ a, (k0_off1 i) a + S1x256x256.size a ≤ S1x256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x256.size a ≤ S4x32x256x256.size a
  hwx0_0 : ∀ i : grid0.Coords, EltTy.bits .f32 = 32 ∨ (Rect.block (s := S4x32x256x256) S1x1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x8192.size a ≤ S4x8192x8192.size a
  hwx0_1 : ∀ i : grid0.Coords, EltTy.bits .f32 = 32 ∨ (Rect.block (s := S4x8192x8192) S1x256x8192.size (cc0_transform_1 i) (hinb0_1 i)).WholeWords (EltTy.packing .f32)

variable [Facts₀]

abbrev win0_0 : Pipeline.Window sig grid0 :=
  Pipeline.Window.ofSpec (Memref.whole main_arg1) S1x1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x32x16x16 : Shape := ⟨4, ![4, 32, 16, 16]⟩
abbrev S4x32x256x256 : Shape := ⟨4, ![4, 32, 256, 256]⟩
abbrev S4x16x16x32 : Shape := ⟨4, ![4, 16, 16, 32]⟩
abbrev S4x8192 : Shape := ⟨2, ![4, 8192]⟩
abbrev S32 : Shape := ⟨1, ![32]⟩
abbrev S_ : Shape := ⟨0, ![]⟩
abbrev S4x32x256x32x256 : Shape := ⟨5, ![4, 32, 256, 32, 256]⟩
abbrev S32x4x256x256 : Shape := ⟨4, ![32, 4, 256, 256]⟩
abbrev S32x1 : Shape := ⟨2, ![32, 1]⟩
abbrev S32x2 : Shape := ⟨2, ![32, 2]⟩
abbrev S4x8192x8192 : Shape := ⟨3, ![4, 8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4x32x16x16, .f32⟩
  | .hbm, ⟨1, _⟩ => ⟨S4x32x256x256, .f32⟩
  | .hbm, ⟨2, _⟩ => ⟨S4x16x16x32, .f32⟩
  | .hbm, ⟨3, _⟩ => ⟨S4x8192, .f32⟩
  | .hbm, ⟨4, _⟩ => ⟨S32, .i32⟩
  | .hbm, ⟨5, _⟩ => ⟨S_, .f32⟩
  | .hbm, ⟨6, _⟩ => ⟨S4x32x256x32x256, .f32⟩
  | .hbm, ⟨7, _⟩ => ⟨S32x4x256x256, .f32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S32x1, .i32⟩
  | .hbm, ⟨23, _⟩ => ⟨S32x1, .i32⟩
  | .hbm, ⟨24, _⟩ => ⟨S32x2, .i32⟩
  | .hbm, ⟨25, _⟩ => ⟨S4x32x256x32x256, .f32⟩
  | .hbm, ⟨26, _⟩ => ⟨S4x8192x8192, .f32⟩
  | _, _ => ⟨S4x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S4x32x16x16_S4x16x16x32_0_2_3_1 : S4x32x16x16.Transposes [0, 2, 3, 1] S4x16x16x32
  shapeCasts_S4x16x16x32_S4x8192 : S4x16x16x32.ShapeCasts S4x8192
  bcast_S_S4x32x256x32x256 : S_.BroadcastsInDim S4x32x256x32x256 (![] : Fin 0 → Fin S4x32x256x32x256.rank)
  transposes_S4x32x256x256_S32x4x256x256_1_0_2_3 : S4x32x256x256.Transposes [1, 0, 2, 3] S32x4x256x256
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  shapeCasts_S4x32x256x32x256_S4x8192x8192 : S4x32x256x32x256.ShapeCasts S4x8192x8192
  scatter_S4x32x256x32x256_S32x2_S32x4x256x256_123_13_13_1_wf : ScatterDims.WF S4x32x256x32x256 S32x2 S32x4x256x256 [1, 2, 3] [1, 3] [1, 3] 1

variable [Facts₀]

def scatter_S4x32x256x32x256_S32x2_S32x4x256x256_123_13_13_1 : ScatterDims S4x32x256x32x256 S32x2 S32x4x256x256 where
  updateWindowDims := [1, 2, 3]
  insertedWindowDims := [1, 3]
  scatterDimsToOperandDims := [1, 3]
  indexVectorDim := 1
  wf := scatter_S4x32x256x32x256_S32x2_S32x4x256x256_123_13_13_1_wf

class Facts : Prop extends Facts₀ where

variable [Facts]
-- ==== Proof.BlockDiag.lean ====
/-
  The block-diagonal matrix both programs build, as one function of its index.

  For a batch `b` and channels `c = 0 … 31`, the 8192 × 8192 matrix of batch `b` carries the 256 × 256 matrix
  `σ[b, c]` as its `c`-th diagonal block and a fixed element `z` everywhere else. Row `R` lies in block row
  `R / 256` at inner row `R % 256`, column `C` in block column `C / 256` at inner column `C % 256`; so

      blockDiag z σ (b, R, C) = σ (b, R / 256, R % 256, C % 256)   when R / 256 = C / 256,
                              = z                                    otherwise.
-/
import Idealize.ShloMosaic.Lib.ValueIdx

namespace BlockDiag

open Idealize.ShloMosaic Idealize.ShloMosaic.ValueIdx

/-- The shape of the stacked blocks `σ`: batch, channel, inner row, inner column. -/
abbrev SIn : Shape := ⟨4, ![4, 32, 256, 256]⟩
/-- The shape of the result: batch, row, column. -/
abbrev SOut : Shape := ⟨3, ![4, 8192, 8192]⟩

/-- The index of `σ` that entry `(b, R, C)` of a diagonal block reads: `(b, R / 256, R % 256, C % 256)`. -/
def src (i : SOut.Idx) : SIn.Idx :=
  have h0 : (i 0).val < 4 := (i 0).isLt
  have h1 : (i 1).val < 8192 := (i 1).isLt
  ix4 (⟨(i 0).val, h0⟩ : Fin 4) (⟨(i 1).val / 256, by omega⟩ : Fin 32) (⟨(i 1).val % 256, by omega⟩ : Fin 256)
    (⟨(i 2).val % 256, by omega⟩ : Fin 256)

/-- The block-diagonal matrix of the blocks `σ`, with `z` off the diagonal blocks. -/
def blockDiag {α : Type} (z : α) (σ : SIn.Idx → α) : SOut.Idx → α := fun i =>
  if (i 1).val / 256 = (i 2).val / 256 then σ (src i) else z

theorem blockDiag_on {α : Type} (z : α) (σ : SIn.Idx → α) (i : SOut.Idx)
    (h : (i 1).val / 256 = (i 2).val / 256) : blockDiag z σ i = σ (src i) := if_pos h

theorem blockDiag_off {α : Type} (z : α) (σ : SIn.Idx → α) (i : SOut.Idx)
    (h : (i 1).val / 256 ≠ (i 2).val / 256) : blockDiag z σ i = z := if_neg h

@[simp] theorem src_0 (i : SOut.Idx) : ((src i) 0).val = (i 0).val := rfl
@[simp] theorem src_1 (i : SOut.Idx) : ((src i) 1).val = (i 1).val / 256 := rfl
@[simp] theorem src_2 (i : SOut.Idx) : ((src i) 2).val = (i 1).val % 256 := rfl
@[simp] theorem src_3 (i : SOut.Idx) : ((src i) 3).val = (i 2).val % 256 := rfl

end BlockDiag
-- ==== Proof.KerBlock.lean ====
/-
  What one grid point leaves in its output block.

  At grid point (b, q) the body first fills its 1 × 256 × 8192 output block with zeros and then stores the
  256 × 256 input block into the columns [256 q, 256 q + 256). So the block, read at (0, r, C), is the input
  block's element (0, 0, r, C % 256) when C / 256 = q, and zero otherwise: the later store wins where the two
  overlap, and the earlier one shows everywhere else.
-/
import proofs.«150424_j26499948216838_1_alg».proof.Proof.Gen.KernelIdeal.Value
import proofs.«150424_j26499948216838_1_alg».proof.Proof.BlockDiag
import Idealize.ShloMosaic.Lib.Pipeline.Value
import Idealize.ShloMosaic.Lib.ValueIdx

set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The re-laid input block (two changes of shape that keep the row-major order) at (0, r, s) is the block at
    (0, 0, r, s). -/
theorem relaid_apply (x : Vec F S1x1x256x256 .f32) (r s : Fin 256) :
    k0_pay2 x (ix3 (0 : Fin 1) r s) = x (ix4 (0 : Fin 1) (0 : Fin 1) r s) := by
  unfold k0_pay2
  rw [shapeCast_apply _ shapeCasts_S256x256_S1x256x256 (ix3 (0 : Fin 1) r s) (ix2 r s)
    (by rw [Shape.rowMajor_val_two, Shape.rowMajor_val_three]; show r.val * 256 + s.val = ((0 : Fin 1).val * 256 + r.val) * 256 + s.val; simp)]
  rw [shapeCast_apply _ shapeCasts_S1x1x256x256_S256x256 (ix2 r s) (ix4 (0 : Fin 1) (0 : Fin 1) r s)
    (by rw [Shape.rowMajor_val_four, Shape.rowMajor_val_two]; show (((0 : Fin 1).val * 1 + (0 : Fin 1).val) * 256 + r.val) * 256 + s.val = r.val * 256 + s.val; simp)]

/-- The zero fill overlaid by the store of the re-laid input block at column offset `256 q`, read at one index. -/
theorem overlay_apply (q : Nat) (off : Fin 3 → Nat) (hoff : off = ![0, 0, q * 256])
    (inb : ∀ a, off a + S1x256x256.size a ≤ S1x256x8192.size a)
    (inb0 : ∀ a, (![0, 0, 0] : Fin 3 → Nat) a + S1x256x8192.size a ≤ S1x256x8192.size a)
    (x : Vec F S1x1x256x256 .f32) (y : S1x256x8192.Idx) :
    View.canon ([⟨Rect.unit off S1x256x256.size inb, k0_pay2 x⟩,
        ⟨Rect.unit ![0, 0, 0] S1x256x8192.size inb0, k0_pay1 (F := F)⟩] : List (View.Piece (Elt F) S1x256x8192 .f32)) y
      = if (y 2).val / 256 = q then
          x (ix4 (0 : Fin 1) (0 : Fin 1) (⟨(y 1).val, (y 1).isLt⟩ : Fin 256) (⟨(y 2).val % 256, Nat.mod_lt _ (by decide)⟩ : Fin 256))
        else (Scalar.ofBits .f32 0x00000000#32 : F .f32) := by
  subst hoff
  have h0 : (y 0).val < 1 := (y 0).isLt
  have h1 : (y 1).val < 256 := (y 1).isLt
  have h2 : (y 2).val < 8192 := (y 2).isLt
  by_cases h : (y 2).val / 256 = q
  · rw [if_pos h]
    have hy : (Rect.unit (s := S1x256x8192) ![0, 0, q * 256] S1x256x256.size inb).emb
        (ix3 (0 : Fin 1) (⟨(y 1).val, (y 1).isLt⟩ : Fin 256) (⟨(y 2).val % 256, Nat.mod_lt _ (by decide)⟩ : Fin 256)) = y := by
      funext a; apply Fin.ext
      match a with
      | ⟨0, _⟩ => show 0 + 1 * 0 = (y 0).val; omega
      | ⟨1, _⟩ => show 0 + 1 * (y 1).val = (y 1).val; omega
      | ⟨2, _⟩ => show q * 256 + 1 * ((y 2).val % 256) = (y 2).val; omega
    have e := View.canon_cons_emb (Val := Elt F) (Rect.unit (s := S1x256x8192) ![0, 0, q * 256] S1x256x256.size inb) (k0_pay2 x)
      ([⟨Rect.unit ![0, 0, 0] S1x256x8192.size inb0, k0_pay1 (F := F)⟩] : List (View.Piece (Elt F) S1x256x8192 .f32))
      (ix3 (0 : Fin 1) (⟨(y 1).val, (y 1).isLt⟩ : Fin 256) (⟨(y 2).val % 256, Nat.mod_lt _ (by decide)⟩ : Fin 256))
    rw [hy] at e
    rw [e]
    exact relaid_apply x _ _
  · rw [if_neg h]
    have hn : y ∉ (Rect.unit (s := S1x256x8192) ![0, 0, q * 256] S1x256x256.size inb).set := by
      rw [Rect.mem_set_unit]
      intro hm
      have hm2 : q * 256 ≤ (y 2).val ∧ (y 2).val < q * 256 + 256 := hm 2
      omega
    rw [View.canon_cons_of_not_mem
        (⟨Rect.unit (s := S1x256x8192) ![0, 0, q * 256] S1x256x256.size inb, k0_pay2 x⟩ : View.Piece (Elt F) S1x256x8192 .f32)
        ([⟨Rect.unit ![0, 0, 0] S1x256x8192.size inb0, k0_pay1 (F := F)⟩] : List (View.Piece (Elt F) S1x256x8192 .f32)) hn,
      View.canon_unit_zero zeros3]
    rfl

/-- What the body leaves in its output block is that overlay, whatever staging buffers it ran on. -/
theorem out_eq_overlay (c : Dev nD) (i : grid0.Coords) (arg2 : Memref sig .tc .vmem S1x1x256x256 .f32) (harg2 : arg2.IsWhole)
    (arg3 : Memref sig .tc .vmem S1x256x8192 .f32) (harg3 : arg3.IsWhole) (x0 : Vec F S1x1x256x256 .f32) :
    out0_A_1 c i arg2 harg2 arg3 harg3 x0
      = View.canon ([⟨Rect.unit (k0_off1 i) S1x256x256.size (k0_off1_inb i), k0_pay2 x0⟩,
          ⟨Rect.unit ![0, 0, 0] S1x256x8192.size inb_S1x256x8192_S1x256x8192_0_0_0, k0_pay1 (F := F)⟩] : List (View.Piece (Elt F) S1x256x8192 .f32)) := by
  unfold out0_A_1
  rw [View.read_writes_eq_canon _ _ _ (cover0_A_1 c i arg2 harg2 arg3 harg3 x0)]
  unfold kernelRun0_A
  dsimp only
  sl_unfold_words
  simp only [View.readAt_eq_ld, harg2.read_unread, View.ld_unit_zero (S := S1x1x256x256) zeros4]

end Cert.KernelIdeal.Block

end
-- ==== Proof.KerValue.lean ====
/-
  The idealized kernel's results as functions of its arguments.

  The second result: every grid point (b, q) writes back one 1 × 256 × 8192 block of the output, the rows
  [256 q, 256 q + 256) of batch b, and that block is the same block of the block-diagonal matrix of the input:
  in it row R = 256 q + r lies in block row q, and the body put the input block (b, q) at exactly the columns
  of block column q and zeros elsewhere. The 4 · 32 blocks tile the output, so after the run the whole array is
  the block-diagonal matrix. The first result is written by the two layout operations before the kernel and is
  not touched by it.
-/
import proofs.«150424_j26499948216838_1_alg».proof.Proof.KerBlock
import Idealize.ShloMosaic.Lib.StableHlo.Run
import proofs.«150424_j26499948216838_1_alg».proof.Proof.BlockDiag
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The element off the diagonal blocks: the kernel's zero constant. -/
abbrev zero : F .f32 := Scalar.ofBits .f32 0x00000000#32

/-- The printed index maps and the column offset, decided over the 128 grid points: both windows sit at block
    (b, q), the input's inner block indices and the output's column block index are 0, and the store's offset is
    (0, 0, 256 q). -/
theorem idx_facts : ∀ t : Fin cfg0.N,
    win0_0.index t (0 : Fin 4) = win0_1.index t (0 : Fin 3)
    ∧ win0_0.index t (1 : Fin 4) = win0_1.index t (1 : Fin 3)
    ∧ win0_0.index t (2 : Fin 4) = 0 ∧ win0_0.index t (3 : Fin 4) = 0
    ∧ win0_1.index t (2 : Fin 3) = 0
    ∧ win0_1.index t (0 : Fin 3) ≤ 3 ∧ win0_1.index t (1 : Fin 3) ≤ 31
    ∧ k0_off1 (grid0.coords t) = ![0, 0, win0_1.index t (1 : Fin 3) * 256] :=
  (by decide +kernel : ∀ t : Fin grid0.N, _)

/-- Every (batch, block row) is some grid point's. -/
theorem idx_onto : ∀ (q0 : Fin 4) (q1 : Fin 32), ∃ t : Fin cfg0.N, win0_1.index t = ![q0.val, q1.val, 0] :=
  (by decide +kernel : ∀ (q0 : Fin 4) (q1 : Fin 32), ∃ t : Fin grid0.N, win0_1.index t = ![q0.val, q1.val, 0])

/-- One point's block is the block-diagonal matrix there: for an input block `x0` that is block (b, q) of `σ`,
    the output block at (0, r, C) is the matrix at (b, 256 q + r, C). -/
theorem block_is_blockDiag (c : Dev nD) (i : grid0.Coords) (arg2 : Memref sig .tc .vmem S1x1x256x256 .f32) (harg2 : arg2.IsWhole)
    (arg3 : Memref sig .tc .vmem S1x256x8192 .f32) (harg3 : arg3.IsWhole) (x0 : Vec F S1x1x256x256 .f32)
    (σ : S4x32x256x256.Idx → F .f32) (b q : Nat) (hb : b < 4) (hq : q < 32)
    (hoff : k0_off1 i = ![0, 0, q * 256])
    (hx0 : ∀ r s : Fin 256, x0 (ix4 (0 : Fin 1) (0 : Fin 1) r s) = σ (ix4 (⟨b, hb⟩ : Fin 4) (⟨q, hq⟩ : Fin 32) r s))
    (y : S1x256x8192.Idx) (i' : S4x8192x8192.Idx)
    (h0 : (i' 0).val = b) (h1 : (i' 1).val = q * 256 + (y 1).val) (h2 : (i' 2).val = (y 2).val) :
    out0_A_1 c i arg2 harg2 arg3 harg3 x0 y = BlockDiag.blockDiag (zero (F := F)) σ i' := by
  rw [Block.out_eq_overlay, Block.overlay_apply q (k0_off1 i) hoff]
  have hy1 : (y 1).val < 256 := (y 1).isLt
  by_cases h : (y 2).val / 256 = q
  · rw [if_pos h, BlockDiag.blockDiag_on _ _ _ (by rw [h1, h2]; omega), hx0]
    congr 1
    funext a; apply Fin.ext
    match a with
    | ⟨0, _⟩ => exact h0.symm
    | ⟨1, _⟩ => show q = (i' 1).val / 256; omega
    | ⟨2, _⟩ => show (y 1).val = (i' 1).val % 256; omega
    | ⟨3, _⟩ => show (y 2).val % 256 = (i' 2).val % 256; omega
  · rw [if_neg h, BlockDiag.blockDiag_off _ _ _ (by rw [h1, h2]; omega)]

/-- What point `t` writes back is block `t` of the block-diagonal matrix of the input as the kernel finds it. -/
theorem flushed_eq (c : Dev nD) (t : Fin cfg0.N) :
    (dats m 0 c).flushed 1 t
      = ((cfg0.win 1).blk t).view.read (Elt F) (BlockDiag.blockDiag (zero (F := F)) (V m c main_arg1)) := by
  rw [Value.flushed1_A]
  obtain ⟨e0, e1, e2, e3, e4, e5, e6, e7⟩ := idx_facts t
  funext y
  show out0_A_1 c (grid0.coords t) (ms0_0 t) (hs0_0 t) (ms0_1 t) (hs0_1 t) (iblk m c 0 t) y
    = BlockDiag.blockDiag (zero (F := F)) (V m c main_arg1) (((cfg0.win 1).blk t).view.emb y)
  refine block_is_blockDiag c (grid0.coords t) (ms0_0 t) (hs0_0 t) (ms0_1 t) (hs0_1 t) (iblk m c 0 t) (V m c main_arg1)
    (win0_1.index t (0 : Fin 3)) (win0_1.index t (1 : Fin 3)) (by omega) (by omega) e7 ?_ y (((cfg0.win 1).blk t).view.emb y) ?_ ?_ ?_
  · intro r s
    show V m c main_arg1 (((cfg0.win 0).blk t).view.emb (ix4 (0 : Fin 1) (0 : Fin 1) r s)) = V m c main_arg1 _
    refine congrArg (V m c main_arg1) ?_
    funext a; apply Fin.ext
    match a with
    | ⟨0, _⟩ => show win0_0.index t (0 : Fin 4) * 1 + 1 * 0 = win0_1.index t (0 : Fin 3); omega
    | ⟨1, _⟩ => show win0_0.index t (1 : Fin 4) * 1 + 1 * 0 = win0_1.index t (1 : Fin 3); omega
    | ⟨2, _⟩ => show win0_0.index t (2 : Fin 4) * 256 + 1 * r.val = r.val; omega
    | ⟨3, _⟩ => show win0_0.index t (3 : Fin 4) * 256 + 1 * s.val = s.val; omega
  · show win0_1.index t (0 : Fin 3) * 1 + 1 * (y 0).val = win0_1.index t (0 : Fin 3)
    have : (y 0).val < 1 := (y 0).isLt
    omega
  · show win0_1.index t (1 : Fin 3) * 256 + 1 * (y 1).val = win0_1.index t (1 : Fin 3) * 256 + (y 1).val
    omega
  · show win0_1.index t (2 : Fin 3) * 8192 + 1 * (y 2).val = (y 2).val
    omega

/-- An index of the output is in point `t`'s block iff each coordinate is in the block's range on its axis. -/
theorem mem_blk (t : Fin cfg0.N) (i : S4x8192x8192.Idx) :
    i ∈ ((cfg0.win 1).blk t).view.set ↔ ∀ a : Fin 3, win0_1.index t a * S1x256x8192.size a ≤ (i a).val
      ∧ (i a).val < win0_1.index t a * S1x256x8192.size a + S1x256x8192.size a := by
  show i ∈ ((View.whole main_v2).slice (win0_1.rect t)).set ↔ _
  rw [View.set_slice_whole, Rect.mem_set_unit]
  exact Iff.rfl

/-- The blocks tile the output: entry (b, R, C) is in the block of point (b, R / 256). -/
theorem cover (i : S4x8192x8192.Idx) :
    ∃ t : Fin cfg0.N, (cfg0.win 1).flush t = true ∧ i ∈ ((cfg0.win 1).blk t).view.set := by
  have hi0 : (i 0).val < 4 := (i 0).isLt
  have hi1 : (i 1).val < 8192 := (i 1).isLt
  have hi2 : (i 2).val < 8192 := (i 2).isLt
  obtain ⟨t, ht⟩ := idx_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 8192 ≤ (i 2).val ∧ (i 2).val < win0_1.index t (2 : Fin 3) * 8192 + 8192; omega

/-- After the run the second result is the block-diagonal matrix of the second argument. -/
theorem final (c : Dev nD) :
    (dats m 0 c).arrAt 1 cfg0.N = BlockDiag.blockDiag (zero (F := F)) (m ((c : Thread nD τ).loc main_arg1)) := by
  rw [← V_main_arg1 m c]
  exact (dats m 0 c).arrAt_eq_of_cover 1 (BlockDiag.blockDiag (zero (F := F)) (V m c main_arg1)) (fun t _ => flushed_eq m c t) cover

/-- The first result as the kernel finds it and leaves it: the first argument transposed to (b, h, w, c) and
    flattened. -/
theorem v1_eq (c : Dev nD) :
    (V m c main_v1 : S4x8192.Idx → Elt F .f32)
      = shapeCast S4x8192 (transpose S4x16x16x32 [0, 2, 3, 1] (m ((c : Thread nD τ).loc main_arg0)) transposes_S4x32x16x16_S4x16x16x32_0_2_3_1)
          shapeCasts_S4x16x16x32_S4x8192 := by
  dsimp only [Gen.V, Gen.hostOps0]
  after_results
  rfl

/-- The run: both results named as functions of the arguments, the arguments unchanged. -/
theorem run : θ_run defs (onTc (τ := τ) (main (F := F))) ⟨m, fun _ => 0, ρ⟩ fun r => ∀ c : Dev nD,
      r.2.mem ((c : Thread nD τ).loc main_v1)
        = shapeCast S4x8192 (transpose S4x16x16x32 [0, 2, 3, 1] (m ((c : Thread nD τ).loc main_arg0)) transposes_S4x32x16x16_S4x16x16x32_0_2_3_1)
            shapeCasts_S4x16x16x32_S4x8192
      ∧ r.2.mem ((c : Thread nD τ).loc main_v2) = BlockDiag.blockDiag (zero (F := F)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 (by decide) (by decide))).trans (v1_eq m c),
       (Value.post1 m r h c).trans (final m c),
       Value.kept_main_arg0 m r h c,
       Value.kept_main_arg1 m r h c⟩)
    (run_main m ρ)

end Cert.KernelIdeal.Final

end
-- ==== Proof.LibScatterSet.lean ====
/-
  A scatter whose combiner keeps the update ("set"), read at one index of its result.

  The scatter is the left fold, over the update's positions in row-major order, of the step "if this
  update lands inside the operand, overwrite the element it lands on". Read at ONE index `i` of the
  result, only the updates that land on `i` matter:
  * if no update lands on `i`, the result there is the operand's element;
  * if exactly one update lands on `i`, the result there is that update's element.
  An update lands on `i` exactly when, on every axis, its start plus its window coordinate is `i`'s
  coordinate (`resultIdx?_eq_some_iff`), which turns "lands on" into arithmetic on coordinates.
-/
import Idealize.ShloMosaic.PureOps.ShapeOps

namespace ScatterSet

open Idealize.ShloMosaic

variable {α : Type} {s si u : Shape} {w : Nat}

/-- One step of the scatter's fold: update position `n` overwrites the element it lands on, if any. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w)
    (upd : u.Idx → α) :
    Host.scatter d f x idx upd = (List.finRange u.numel).foldl (step d f idx upd) x := rfl

/-- A step whose update does not land on `i` leaves the element at `i` alone. -/
theorem step_miss (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  generalize d.resultIdx? (u.rowMajor.symm n) idx = o at h ⊢
  cases o with
  | none => rfl
  | some i0 =>
    have hne : i ≠ i0 := fun e => h (by rw [e])
    show (if i = i0 then _ else r i) = r i
    rw [if_neg hne]

/-- A "set" step whose update lands on `i` leaves the update's element at `i`. -/
theorem step_hit (d : ScatterDims s si u) (idx : IVec si w) (upd : u.Idx → α)
    (r : s.Idx → α) (n : Fin u.numel) (i : s.Idx)
    (h : d.resultIdx? (u.rowMajor.symm n) idx = some i) :
    step d (fun _ b => b) idx upd r n i = upd (u.rowMajor.symm n) := by
  unfold step
  generalize d.resultIdx? (u.rowMajor.symm n) idx = o at h ⊢
  cases o with
  | none => cases h
  | some i0 =>
    have he : i = i0 := (Option.some.inj h).symm
    show (if i = i0 then upd (u.rowMajor.symm n) else r i) = _
    rw [if_pos he]

/-- Folding steps none of which lands on `i` leaves the element at `i` alone. -/
theorem foldl_miss (d : ScatterDims s si u) (f : α → α → α) (idx : IVec si w) (upd : u.Idx → α)
    (l : List (Fin u.numel)) (r : s.Idx → α) (i : s.Idx)
    (h : ∀ n ∈ l, d.resultIdx? (u.rowMajor.symm n) idx ≠ some i) :
    (l.foldl (step d f idx upd) r) i = r i := by
  induction l generalizing r with
  | nil => rfl
  | cons n t ih =>
    rw [List.foldl_cons, ih _ (fun m hm => h m (List.mem_cons_of_mem _ hm))]
    exact step_miss d f idx upd r n i (h n (List.mem_cons_self ..))

/-- Folding "set" steps over positions without repeats, exactly one of which lands on `i`, leaves
    that update's element at `i`. -/
theorem foldl_hit (d : ScatterDims s si u) (idx : IVec si w) (upd : u.Idx → α)
    (l : List (Fin u.numel)) (hl : l.Nodup) (r : s.Idx → α) (i : s.Idx) (n0 : Fin u.numel) (hn0 : n0 ∈ l)
    (h0 : d.resultIdx? (u.rowMajor.symm n0) idx = some i)
    (huniq : ∀ n ∈ l, d.resultIdx? (u.rowMajor.symm n) idx = some i → n = n0) :
    (l.foldl (step d (fun _ b => b) idx upd) r) i = upd (u.rowMajor.symm n0) := by
  induction l generalizing r with
  | nil => cases hn0
  | cons n t ih =>
    rw [List.foldl_cons]
    have hnd := List.nodup_cons.1 hl
    by_cases hn : n = n0
    · subst hn
      rw [foldl_miss d _ idx upd t _ i (fun m hm hm' => hnd.1 (huniq m (List.mem_cons_of_mem _ hm) hm' ▸ hm))]
      exact step_hit d idx upd r n i h0
    · have hmem : n0 ∈ t := by
        rcases List.mem_cons.1 hn0 with e | e
        · exact absurd e.symm hn
        · exact e
      exact ih hnd.2 _ hmem (fun m hm => huniq m (List.mem_cons_of_mem _ hm))

/-- The scatter at an index no update lands on: the operand's element. -/
theorem scatter_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [scatter_eq_foldl]
  exact foldl_miss d f idx upd _ x i (fun n _ => h _)

/-- The "set" scatter at an index exactly one update lands on: that update's element. -/
theorem scatter_hit (d : ScatterDims s si u) (x : s.Idx → α) (idx : IVec si w)
    (upd : u.Idx → α) (i : s.Idx) (j : u.Idx) (h0 : d.resultIdx? j idx = some i)
    (huniq : ∀ j' : u.Idx, d.resultIdx? j' idx = some i → j' = j) :
    Host.scatter d (fun _ b => b) x idx upd i = upd j := by
  rw [scatter_eq_foldl]
  have e : u.rowMajor.symm (u.rowMajor j) = j := Equiv.symm_apply_apply _ _
  rw [← e]
  refine foldl_hit d idx upd _ (List.nodup_finRange _) x i (u.rowMajor j) (List.mem_finRange _) (by rw [e]; exact h0) ?_
  intro n _ hn
  have := huniq _ hn
  rw [← this]; exact (Equiv.apply_symm_apply _ _).symm

/-- An update lands on `i` exactly when, on every axis, its start plus its window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hb =>
      have := Option.some.inj h
      subst this
      have := hb a
      show _ = (((d.start j idx a + (d.window j a : Int)).toNat : Nat) : Int)
      omega
    · cases h
  · intro h
    have hb : ∀ a, 0 ≤ d.start j idx a + (d.window j a : Int) ∧ d.start j idx a + (d.window j a : Int) < s.size a := by
      intro a; have := h a; have := (i a).isLt; omega
    rw [dif_pos hb]
    congr 1
    funext a
    apply Fin.ext
    show (d.start j idx a + (d.window j a : Int)).toNat = (i a).val
    have := h a; omega

end ScatterSet
-- ==== Proof.RefValue.lean ====
/-
  The reference program's second result is the block-diagonal matrix.

  The program scatters the transposed blocks u[k, b, r, s] = σ[b, k, r, s] into a zero array of shape
  [4, 32, 256, 32, 256] and reshapes the result to [4, 8192, 8192].

  * The table of scatter indices has idx[k, 0] = idx[k, 1] = k: it is an iota passed through a
    "negative index" wrap (add 32 where the word is negative), which never fires on a word below 32.
  * On the five operand axes the window of update (k, b, r, s) starts at (0, k, 0, k, 0) and its
    window coordinate is (b, 0, r, 0, s); so the update lands exactly on the operand index (b, k, r, k, s).
  * Hence an operand index (b, c, r, c', s) receives exactly one update, (c, b, r, s), when c = c',
    and none when c ≠ c': the scatter holds σ[b, c, r, s] in the first case and zero in the second.
  * The reshape reads row R and column C at (b, R / 256, R % 256, C / 256, C % 256), which gives
    σ[b, R / 256, R % 256, C % 256] when R / 256 = C / 256 and zero otherwise.
-/
import proofs.«150424_j26499948216838_1_alg».proof.Proof.Gen.ReferenceIdeal.Read
import proofs.«150424_j26499948216838_1_alg».proof.Proof.LibScatterSet
import proofs.«150424_j26499948216838_1_alg».proof.Proof.BlockDiag
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable {F : FTy → Type} [FloatOps F]

theorem word_sel : ∀ k : Fin 32,
    Scalar.select (IntOp.cmpi .slt (BitVec.ofNat 32 k.val) 0#32) (IntOp.addi (BitVec.ofNat 32 k.val) 32#32)
      (BitVec.ofNat 32 k.val) = BitVec.ofNat 32 k.val := by
  decide

theorem word_toInt : ∀ k : Fin 32, (BitVec.ofNat 32 k.val).toInt = (k.val : Int) := by
  decide

theorem v9_at (i : S32.Idx) : val_main_v9 (F := F) i = BitVec.ofNat 32 (i 0).val := by
  rw [val_main_v9_apply, val_main_v6_apply, val_main_v8_apply, val_main_v2_apply, val_main_v5_apply, val_main_v7_apply,
    val_main_c_apply, val_main_c_0_apply]
  exact word_sel (i 0)

theorem v14_at (i : S32.Idx) : val_main_v14 (F := F) i = BitVec.ofNat 32 (i 0).val := by
  rw [val_main_v14_apply, val_main_v11_apply, val_main_v13_apply, val_main_v2_apply, val_main_v10_apply, val_main_v12_apply,
    val_main_c_1_apply, val_main_c_2_apply]
  exact word_sel (i 0)

theorem table_at (i : S32x2.Idx) : val_main_v17 (F := F) i = BitVec.ofNat 32 (i 0).val := by
  unfold val_main_v17
  have h1 : (i 1).val < 2 := (i 1).isLt
  by_cases h : (i 1).val = 0
  · rw [concatenate_pair_apply_left (t := S32x2) (s₁ := S32x1) (s₂ := S32x1) (1 : Fin 2) (val_main_v15 (F := F)) (val_main_v16 (F := F)) concatenates_S32x1_S32x1_S32x2_d1 i rfl (ix2 (i 0) (⟨0, by decide⟩ : Fin 1))
        (fun b => match b with | ⟨0, _⟩ => rfl | ⟨1, _⟩ => h.symm)]
    rw [val_main_v15_apply, v9_at]
  · rw [concatenate_pair_apply_right (t := S32x2) (s₁ := S32x1) (s₂ := S32x1) (1 : Fin 2) (val_main_v15 (F := F)) (val_main_v16 (F := F)) concatenates_S32x1_S32x1_S32x2_d1 i rfl rfl (ix2 (i 0) (⟨0, by decide⟩ : Fin 1))
        (fun b => match b with | ⟨0, _⟩ => fun _ => rfl | ⟨1, _⟩ => fun hb => absurd rfl hb)
        (by show 0 + 1 = (i 1).val; omega)]
    rw [val_main_v16_apply, v14_at]

local notation "D" => scatter_S4x32x256x32x256_S32x2_S32x4x256x256_123_13_13_1

theorem siIdx_0 (j : S32x4x256x256.Idx) (c : Fin (D).scatterDimsToOperandDims.length) :
    (((D).siIdx j c) 0).val = (j 0).val := rfl

theorem window_0 (j : S32x4x256x256.Idx) : (D).window j ⟨0, by decide⟩ = (j 1).val := rfl
theorem window_1 (j : S32x4x256x256.Idx) : (D).window j ⟨1, by decide⟩ = 0 := rfl
theorem window_2 (j : S32x4x256x256.Idx) : (D).window j ⟨2, by decide⟩ = (j 2).val := rfl
theorem window_3 (j : S32x4x256x256.Idx) : (D).window j ⟨3, by decide⟩ = 0 := rfl
theorem window_4 (j : S32x4x256x256.Idx) : (D).window j ⟨4, by decide⟩ = (j 3).val := rfl

theorem start_mem {s si u : Shape} (d : ScatterDims s si u) {w : Nat} (j : u.Idx) (idx : IVec si w) (a : Fin s.rank)
    (ha : a ∈ d.scatterDimsToOperandDims) :
    d.start j idx a = (idx (d.siIdx j ⟨d.scatterDimsToOperandDims.idxOf a, List.idxOf_lt_length_iff.2 ha⟩)).toInt :=
  dif_pos ha

theorem start_0 (j : S32x4x256x256.Idx) : (D).start j (val_main_v17 (F := F)) ⟨0, by decide⟩ = 0 := rfl
theorem start_2 (j : S32x4x256x256.Idx) : (D).start j (val_main_v17 (F := F)) ⟨2, by decide⟩ = 0 := rfl
theorem start_4 (j : S32x4x256x256.Idx) : (D).start j (val_main_v17 (F := F)) ⟨4, by decide⟩ = 0 := rfl
theorem start_1 (j : S32x4x256x256.Idx) : (D).start j (val_main_v17 (F := F)) ⟨1, by decide⟩ = ((j 0).val : Int) := by
  rw [start_mem (D) j _ ⟨1, by decide⟩ (by decide), table_at, siIdx_0]
  exact word_toInt (j 0)
theorem start_3 (j : S32x4x256x256.Idx) : (D).start j (val_main_v17 (F := F)) ⟨3, by decide⟩ = ((j 0).val : Int) := by
  rw [start_mem (D) j _ ⟨3, by decide⟩ (by decide), table_at, siIdx_0]
  exact word_toInt (j 0)

/-- Update (k, b, r, s) lands exactly on the operand index (b, k, r, k, s). -/
theorem land_iff (j : S32x4x256x256.Idx) (i : S4x32x256x32x256.Idx) :
    (D).resultIdx? j (val_main_v17 (F := F)) = some i ↔
      (j 1).val = (i 0).val ∧ (j 0).val = (i 1).val ∧ (j 2).val = (i 2).val ∧ (j 0).val = (i 3).val ∧ (j 3).val = (i 4).val := by
  rw [ScatterSet.resultIdx?_eq_some_iff]
  constructor
  · intro h
    have h0 := h ⟨0, by decide⟩
    have h1 := h ⟨1, by decide⟩
    have h2 := h ⟨2, by decide⟩
    have h3 := h ⟨3, by decide⟩
    have h4 := h ⟨4, by decide⟩
    rw [start_0, window_0] at h0
    rw [start_1, window_1] at h1
    rw [start_2, window_2] at h2
    rw [start_3, window_3] at h3
    rw [start_4, window_4] at h4
    refine ⟨?_, ?_, ?_, ?_, ?_⟩
    · show (j 1).val = (i ⟨0, by decide⟩).val; omega
    · show (j 0).val = (i ⟨1, by decide⟩).val; omega
    · show (j 2).val = (i ⟨2, by decide⟩).val; omega
    · show (j 0).val = (i ⟨3, by decide⟩).val; omega
    · show (j 3).val = (i ⟨4, by decide⟩).val; omega
  · intro ⟨e0, e1, e2, e3, e4⟩ a
    match a with
    | ⟨0, _⟩ => rw [start_0, window_0]; show (0 : Int) + ((j 1).val : Int) = ((i 0).val : Int); omega
    | ⟨1, _⟩ => rw [start_1, window_1]; show ((j 0).val : Int) + ((0 : Nat) : Int) = ((i 1).val : Int); omega
    | ⟨2, _⟩ => rw [start_2, window_2]; show (0 : Int) + ((j 2).val : Int) = ((i 2).val : Int); omega
    | ⟨3, _⟩ => rw [start_3, window_3]; show ((j 0).val : Int) + ((0 : Nat) : Int) = ((i 3).val : Int); omega
    | ⟨4, _⟩ => rw [start_4, window_4]; show (0 : Int) + ((j 3).val : Int) = ((i 4).val : Int); omega

/-- The update that lands on an operand index whose two block coordinates agree. -/
abbrev upIdx (i : S4x32x256x32x256.Idx) : S32x4x256x256.Idx :=
  ix4 (⟨(i 1).val, (i 1).isLt⟩ : Fin 32) (⟨(i 0).val, (i 0).isLt⟩ : Fin 4) (⟨(i 2).val, (i 2).isLt⟩ : Fin 256)
    (⟨(i 4).val, (i 4).isLt⟩ : Fin 256)

/-- Where the two block coordinates agree, the scatter holds the block's element. -/
theorem v18_on (x1 : (⟨S4x32x256x256, .f32⟩ : BufTy).Contents (Elt F)) (i : S4x32x256x32x256.Idx)
    (h : (i 1).val = (i 3).val) :
    val_main_v18 (F := F) x1 i = x1 (idx_main_v4 (upIdx i)) := by
  unfold val_main_v18
  rw [ScatterSet.scatter_hit (D) (val_main_v3 (F := F)) (val_main_v17 (F := F)) (val_main_v4 (F := F) x1) i (upIdx i)
    ((land_iff (upIdx i) i).2 ⟨rfl, rfl, rfl, h, rfl⟩)
    (fun j' hj' => by
      obtain ⟨e0, e1, e2, e3, e4⟩ := (land_iff j' i).1 hj'
      funext a
      match a with
      | ⟨0, _⟩ => exact Fin.ext e1
      | ⟨1, _⟩ => exact Fin.ext e0
      | ⟨2, _⟩ => exact Fin.ext e2
      | ⟨3, _⟩ => exact Fin.ext e4)]
  rw [val_main_v4_apply]

/-- Where the two block coordinates differ, the scatter holds the operand's zero. -/
theorem v18_off (x1 : (⟨S4x32x256x256, .f32⟩ : BufTy).Contents (Elt F)) (i : S4x32x256x32x256.Idx)
    (h : (i 1).val ≠ (i 3).val) :
    val_main_v18 (F := F) x1 i = (FloatOps.ofBits .f32 0x00000000#32 : F .f32) := by
  unfold val_main_v18
  rw [ScatterSet.scatter_miss (D) (fun _ b => b) (val_main_v3 (F := F)) (val_main_v17 (F := F)) (val_main_v4 (F := F) x1) i
    (fun j hj => by
      obtain ⟨e0, e1, e2, e3, e4⟩ := (land_iff j i).1 hj
      exact h (by omega))]
  rw [val_main_v3_apply, val_main_cst_apply]

theorem r19_0 (i : S4x8192x8192.Idx) : ((idx_main_v19 i) 0).val = (i 0).val := by
  have h0 : (i 0).val < 4 := (i 0).isLt
  have h1 : (i 1).val < 8192 := (i 1).isLt
  have h2 : (i 2).val < 8192 := (i 2).isLt
  show (((i 0).val * 8192 + (i 1).val) * 8192 + (i 2).val) / 67108864 = (i 0).val
  omega
theorem r19_1 (i : S4x8192x8192.Idx) : ((idx_main_v19 i) 1).val = (i 1).val / 256 := by
  have h0 : (i 0).val < 4 := (i 0).isLt
  have h1 : (i 1).val < 8192 := (i 1).isLt
  have h2 : (i 2).val < 8192 := (i 2).isLt
  show (((i 0).val * 8192 + (i 1).val) * 8192 + (i 2).val) / 2097152 % 32 = (i 1).val / 256
  omega
theorem r19_2 (i : S4x8192x8192.Idx) : ((idx_main_v19 i) 2).val = (i 1).val % 256 := by
  have h0 : (i 0).val < 4 := (i 0).isLt
  have h1 : (i 1).val < 8192 := (i 1).isLt
  have h2 : (i 2).val < 8192 := (i 2).isLt
  show (((i 0).val * 8192 + (i 1).val) * 8192 + (i 2).val) / 8192 % 256 = (i 1).val % 256
  omega
theorem r19_3 (i : S4x8192x8192.Idx) : ((idx_main_v19 i) 3).val = (i 2).val / 256 := by
  have h0 : (i 0).val < 4 := (i 0).isLt
  have h1 : (i 1).val < 8192 := (i 1).isLt
  have h2 : (i 2).val < 8192 := (i 2).isLt
  show (((i 0).val * 8192 + (i 1).val) * 8192 + (i 2).val) / 256 % 32 = (i 2).val / 256
  omega
theorem r19_4 (i : S4x8192x8192.Idx) : ((idx_main_v19 i) 4).val = (i 2).val % 256 := by
  have h0 : (i 0).val < 4 := (i 0).isLt
  have h1 : (i 1).val < 8192 := (i 1).isLt
  have h2 : (i 2).val < 8192 := (i 2).isLt
  show (((i 0).val * 8192 + (i 1).val) * 8192 + (i 2).val) % 256 = (i 2).val % 256
  omega

/-- The reference program's second result is the block-diagonal matrix of the blocks, zero off the blocks. -/
theorem ref_eq (x1 : (⟨S4x32x256x256, .f32⟩ : BufTy).Contents (Elt F)) :
    Cert.ReferenceIdeal.Read.val_main_v19 (F := F) x1
      = BlockDiag.blockDiag (FloatOps.ofBits .f32 0x00000000#32 : F .f32) x1 := by
  funext i
  rw [val_main_v19_apply]
  by_cases h : (i 1).val / 256 = (i 2).val / 256
  · rw [BlockDiag.blockDiag_on _ _ _ h, v18_on x1 (idx_main_v19 i) (by rw [r19_1, r19_3]; exact h)]
    congr 1
    funext a
    match a with
    | ⟨0, _⟩ => exact Fin.ext (r19_0 i)
    | ⟨1, _⟩ => exact Fin.ext (r19_1 i)
    | ⟨2, _⟩ => exact Fin.ext (r19_2 i)
    | ⟨3, _⟩ => exact Fin.ext (r19_4 i)
  · rw [BlockDiag.blockDiag_off _ _ _ h, v18_off x1 (idx_main_v19 i) (by rw [r19_1, r19_3]; exact h)]

end Cert.ReferenceIdeal.RefValue
end
-- ==== Proof.lean ====
/-
  The kernel and its reference compute the same two arrays, exactly.

  Inputs: mu : [4, 32, 16, 16] and sigma : [4, 32, 256, 256]. Results:
  * mu_flat : [4, 8192] — mu transposed to (b, h, w, c) and flattened. Both programs compute it by the same two
    layout operations, so the two results are one term of the argument.
  * sigma_flat : [4, 8192, 8192] — for each batch b the block-diagonal matrix whose c-th diagonal 256 × 256 block
    is sigma[b, c]:  sigma_flat[b, R, C] = sigma[b, R / 256, R % 256, C % 256] when R / 256 = C / 256, else 0.
    The kernel builds it one block row at a time (grid point (b, q) zero-fills rows [256 q, 256 q + 256) of batch b
    and then stores sigma[b, q] into the columns [256 q, 256 q + 256)); the reference scatters the 32 · 4 blocks
    into a zero array viewed as [4, 32, 256, 32, 256], block (b, k) at the index (b, k, ·, k, ·), and reshapes.
    Both are shown equal to the one function `BlockDiag.blockDiag` of sigma.
  No arithmetic is done on the elements, only moves and the constant zero, so the equality holds for every input and
  the finiteness of the inputs is never used; the idealization rewrote nothing, so it preserves the kernel trivially.
  The kernel side is in Proof/KerBlock.lean (one point's block) and Proof/KerValue.lean (the whole array and the run),
  the reference side in Proof/RefValue.lean over the scatter lemma of Proof/LibScatterSet.lean.
-/
import proofs.«150424_j26499948216838_1_alg».proof.Defs
import proofs.«150424_j26499948216838_1_alg».proof.Proof.Gen.Kernel
import proofs.«150424_j26499948216838_1_alg».proof.Proof.Gen.Kernel.Skeleton
import proofs.«150424_j26499948216838_1_alg».proof.Proof.Gen.Kernel.Launch
import proofs.«150424_j26499948216838_1_alg».proof.Proof.Gen.Kernel.Points
import proofs.«150424_j26499948216838_1_alg».proof.Proof.Gen.Kernel.Frame
import proofs.«150424_j26499948216838_1_alg».proof.Proof.Gen.KernelIdeal
import proofs.«150424_j26499948216838_1_alg».proof.Proof.Gen.KernelIdeal.Skeleton
import proofs.«150424_j26499948216838_1_alg».proof.Proof.Gen.KernelIdeal.Launch
import proofs.«150424_j26499948216838_1_alg».proof.Proof.Gen.KernelIdeal.Points
import proofs.«150424_j26499948216838_1_alg».proof.Proof.Gen.KernelIdeal.Frame
import proofs.«150424_j26499948216838_1_alg».proof.Proof.Gen.ReferenceIdeal
import proofs.«150424_j26499948216838_1_alg».proof.Proof.Gen.Pre_finite_inputs
import proofs.«150424_j26499948216838_1_alg».proof.Proof.Gen.KernelIdeal.Value
import proofs.«150424_j26499948216838_1_alg».proof.Proof.Gen.ReferenceIdeal.Run
import proofs.«150424_j26499948216838_1_alg».proof.Proof.Gen.ReferenceIdeal.Read
import proofs.«150424_j26499948216838_1_alg».proof.Proof.KerValue
import proofs.«150424_j26499948216838_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of array operations: it runs, and its arguments are never written. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation. -/
theorem preserves : Cert.preserves_Kernel_KernelIdeal := trivial

/-- From memories that agree on the arguments both programs end with the transposed, flattened first argument and
    the block-diagonal matrix of the second. -/
theorem algebraic : Cert.algebraic_KernelIdeal_ReferenceIdeal := by
  intro m ρ m' ρ' _ hagree
  refine ⟨_, _, Cert.KernelIdeal.Final.run (F := Ideal) m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [(hagree c).1]
  · rw [Cert.ReferenceIdeal.Read.val_main_v19_eq, Cert.ReferenceIdeal.RefValue.ref_eq, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
